-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S768x768 : Shape := ⟨2, ![768, 768]⟩
abbrev S768 : Shape := ⟨1, ![768]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S256x3x224x224 .f32) (main_arg1 : FVec F S768x768 .f32) (main_arg2 : FVec F S768 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S256x3x224x224 : Shape := ⟨4, ![256, 3, 224, 224]⟩
abbrev S768x768 : Shape := ⟨2, ![768, 768]⟩
abbrev S768 : Shape := ⟨1, ![768]⟩
abbrev S256x3x14x16x14x16 : Shape := ⟨6, ![256, 3, 14, 16, 14, 16]⟩
abbrev S256x14x14x3x16x16 : Shape := ⟨6, ![256, 14, 14, 3, 16, 16]⟩
abbrev S256x196x768 : Shape := ⟨3, ![256, 196, 768]⟩
abbrev S50176x768 : Shape := ⟨2, ![50176, 768]⟩
abbrev S1x768 : Shape := ⟨2, ![1, 768]⟩
abbrev S1024x768 : Shape := ⟨2, ![1024, 768]⟩

abbrev nBuf : Space → Nat
  | .hbm => 11
  | .vmem => 6
  | .smem => 0
  | _ => 0

abbrev bufTy : (tb : Table) → Fin (tcTables nBuf tb) → BufTy
  | .hbm, ⟨0, _⟩ => ⟨S256x3x224x224, .f32⟩
  | .hbm, ⟨1, _⟩ => ⟨S768x768, .f32⟩
  | .hbm, ⟨2, _⟩ => ⟨S768, .f32⟩
  | .hbm, ⟨3, _⟩ => ⟨S256x3x14x16x14x16, .f32⟩
  | .hbm, ⟨4, _⟩ => ⟨S256x14x14x3x16x16, .f32⟩
  | .hbm, ⟨5, _⟩ => ⟨S256x196x768, .f32⟩
  | .hbm, ⟨6, _⟩ => ⟨S50176x768, .f32⟩
  | .hbm, ⟨7, _⟩ => ⟨S768x768, .f32⟩
  | .hbm, ⟨8, _⟩ => ⟨S1x768, .f32⟩
  | .hbm, ⟨9, _⟩ => ⟨S50176x768, .f32⟩
  | .hbm, ⟨10, _⟩ => ⟨S256x196x768, .f32⟩
  | .local _ .vmem, ⟨0, _⟩ => ⟨S1024x768, .f32⟩
  | .local _ .vmem, ⟨1, _⟩ => ⟨S1024x768, .f32⟩
  | .local _ .vmem, ⟨2, _⟩ => ⟨S768x768, .f32⟩
  | .local _ .vmem, ⟨3, _⟩ => ⟨S1x768, .f32⟩
  | .local _ .vmem, ⟨4, _⟩ => ⟨S1024x768, .f32⟩
  | .local _ .vmem, ⟨5, _⟩ => ⟨S1024x768, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x3x224x224_S256x3x14x16x14x16 : S256x3x224x224.ShapeCasts S256x3x14x16x14x16
  transposes_S256x3x14x16x14x16_S256x14x14x3x16x16_0_2_4_1_3_5 : S256x3x14x16x14x16.Transposes [0, 2, 4, 1, 3, 5] S256x14x14x3x16x16
  shapeCasts_S256x14x14x3x16x16_S256x196x768 : S256x14x14x3x16x16.ShapeCasts S256x196x768
  shapeCasts_S256x196x768_S50176x768 : S256x196x768.ShapeCasts S50176x768
  transposes_S768x768_S768x768_1_0 : S768x768.Transposes [1, 0] S768x768
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S50176x768_S256x196x768 : S50176x768.ShapeCasts S256x196x768
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S50176x768.size a
  hwx0_0 : ∀ i : grid0.Coords, EltTy.bits .f32 = 32 ∨ (Rect.block (s := S50176x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S50176x768.size a
  hwx0_3 : ∀ i : grid0.Coords, EltTy.bits .f32 = 32 ∨ (Rect.block (s := S50176x768) S1024x768.size (cc0_transform_3 i) (hinb0_3 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v3) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S768x768 : Shape := ⟨2, ![768, 768]⟩
abbrev S768 : Shape := ⟨1, ![768]⟩
abbrev S256x3x14x16x14x16 : Shape := ⟨6, ![256, 3, 14, 16, 14, 16]⟩
abbrev S256x14x14x3x16x16 : Shape := ⟨6, ![256, 14, 14, 3, 16, 16]⟩
abbrev S256x196x768 : Shape := ⟨3, ![256, 196, 768]⟩
abbrev S1x1x768 : Shape := ⟨3, ![1, 1, 768]⟩

abbrev nBuf : Space → Nat
  | .hbm => 10
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S768x768, .f32⟩
  | .hbm, ⟨2, _⟩ => ⟨S768, .f32⟩
  | .hbm, ⟨3, _⟩ => ⟨S256x3x14x16x14x16, .f32⟩
  | .hbm, ⟨4, _⟩ => ⟨S256x14x14x3x16x16, .f32⟩
  | .hbm, ⟨5, _⟩ => ⟨S256x196x768, .f32⟩
  | .hbm, ⟨6, _⟩ => ⟨S256x196x768, .f32⟩
  | .hbm, ⟨7, _⟩ => ⟨S1x1x768, .f32⟩
  | .hbm, ⟨8, _⟩ => ⟨S256x196x768, .f32⟩
  | .hbm, ⟨9, _⟩ => ⟨S256x196x768, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S256x3x224x224_S256x3x14x16x14x16 : S256x3x224x224.ShapeCasts S256x3x14x16x14x16
  transposes_S256x3x14x16x14x16_S256x14x14x3x16x16_0_2_4_1_3_5 : S256x3x14x16x14x16.Transposes [0, 2, 4, 1, 3, 5] S256x14x14x3x16x16
  shapeCasts_S256x14x14x3x16x16_S256x196x768 : S256x14x14x3x16x16.ShapeCasts S256x196x768
  bcast_S768_S1x1x768_2 : S768.BroadcastsInDim S1x1x768 (![2] : Fin 1 → Fin S1x1x768.rank)
  bcast_S1x1x768_S256x196x768_0_1_2 : S1x1x768.BroadcastsInDim S256x196x768 (![0, 1, 2] : Fin 3 → Fin S256x196x768.rank)
  dot_S256x196x768_S768x768_S256x196x768_2_1_01_0_n_n_wf : DotDims.WF S256x196x768 S768x768 S256x196x768 [2] [1] [0, 1] [0] [] []

variable [Facts₀]

def dot_S256x196x768_S768x768_S256x196x768_2_1_01_0_n_n : DotDims S256x196x768 S768x768 S256x196x768 where
  lhsContracting := [2]
  rhsContracting := [1]
  lhsNonContracting := [0, 1]
  rhsNonContracting := [0]
  lhsBatch := []
  rhsBatch := []
  wf := dot_S256x196x768_S768x768_S256x196x768_2_1_01_0_n_n_wf

class Facts : Prop extends Facts₀ where

variable [Facts]
-- ==== Proof.Tokens.lean ====
/-
  The mathematics of a patch embedding, free of any program.  An image batch is cut into 196 patches of 768 pixels
  each; the patch array `P` has extents [256, 196, 768].  A token is the projection of one patch by the rows of a
  weight matrix `W` of extents [768, 768] plus a bias `b` of extent [768]:

      token[n, p, h] = (Σ_k P[n, p, k] · W[h, k]) + b[h].

  `tokens` is that array, index by index, over the extended reals.  `rowsTimesCols` is the same number written for a
  flat matrix product: a row `r` of a [50176, 768] matrix `A` against column `h` of a [768, 768] matrix `Wt`, plus a
  [1, 768] bias row.  When `A` is `P` with its first two axes merged (row 196·n + p is patch (n, p)), `Wt` is the
  transpose of `W` and the bias row is `b`, the two are the same sum term by term: no law of arithmetic is used, so no
  finiteness is needed.
-/
import Idealize.ShloMosaic.Lib.ValueIdx

noncomputable section

open scoped BigOperators

namespace Cert.PatchEmbed

open Idealize.ShloMosaic Idealize.ShloMosaic.ValueIdx

/-- One token: patch `(n, p)` projected on row `h` of the weights, plus the bias at `h`. -/
def tokenAt (P : (⟨3, ![256, 196, 768]⟩ : Shape).Idx → EReal) (W : (⟨2, ![768, 768]⟩ : Shape).Idx → EReal)
    (b : (⟨1, ![768]⟩ : Shape).Idx → EReal) (n : Fin 256) (p : Fin 196) (h : Fin 768) : EReal :=
  (∑ k : Fin 768, P (ix3 n p k) * W (ix2 h k)) + b (ix1 h)

/-- The token array. -/
def tokens (P : (⟨3, ![256, 196, 768]⟩ : Shape).Idx → EReal) (W : (⟨2, ![768, 768]⟩ : Shape).Idx → EReal)
    (b : (⟨1, ![768]⟩ : Shape).Idx → EReal) : (⟨3, ![256, 196, 768]⟩ : Shape).Idx → EReal :=
  fun i => tokenAt P W b (i 0) (i 1) (i 2)

/-- One entry of a flat product with a bias row: row `r` of `A` against column `h` of `Wt`, plus the bias row at `h`. -/
def rowTimesCol (A : (⟨2, ![50176, 768]⟩ : Shape).Idx → EReal) (Wt : (⟨2, ![768, 768]⟩ : Shape).Idx → EReal)
    (b2 : (⟨2, ![1, 768]⟩ : Shape).Idx → EReal) (r : Fin 50176) (h : Fin 768) : EReal :=
  (∑ k : Fin 768, A (ix2 r k) * Wt (ix2 k h)) + b2 (ix2 (0 : Fin 1) h)

/-- The flat product with its bias row, as an array. -/
def rowsTimesCols (A : (⟨2, ![50176, 768]⟩ : Shape).Idx → EReal) (Wt : (⟨2, ![768, 768]⟩ : Shape).Idx → EReal)
    (b2 : (⟨2, ![1, 768]⟩ : Shape).Idx → EReal) : (⟨2, ![50176, 768]⟩ : Shape).Idx → EReal :=
  fun i => rowTimesCol A Wt b2 (i 0) (i 1)

/-- The flat product IS the token when the flat operands are the patch array with its first two axes merged, the
    transposed weights and the bias as a row: the sums agree term by term. -/
theorem rowTimesCol_eq_tokenAt (P : (⟨3, ![256, 196, 768]⟩ : Shape).Idx → EReal) (W : (⟨2, ![768, 768]⟩ : Shape).Idx → EReal)
    (b : (⟨1, ![768]⟩ : Shape).Idx → EReal)
    (A : (⟨2, ![50176, 768]⟩ : Shape).Idx → EReal) (Wt : (⟨2, ![768, 768]⟩ : Shape).Idx → EReal)
    (b2 : (⟨2, ![1, 768]⟩ : Shape).Idx → EReal)
    (n : Fin 256) (p : Fin 196) (h : Fin 768) (r : Fin 50176) (hr : r.val = n.val * 196 + p.val)
    (hA : ∀ (r' : Fin 50176) (k : Fin 768), r'.val = n.val * 196 + p.val → A (ix2 r' k) = P (ix3 n p k))
    (hW : ∀ k h' : Fin 768, Wt (ix2 k h') = W (ix2 h' k))
    (hb : ∀ h' : Fin 768, b2 (ix2 (0 : Fin 1) h') = b (ix1 h')) :
    rowTimesCol A Wt b2 r h = tokenAt P W b n p h := by
  unfold rowTimesCol tokenAt
  rw [hb h]
  congr 1
  exact Finset.sum_congr rfl fun k _ => by rw [hA r k hr, hW k h]

end Cert.PatchEmbed

end
-- ==== Proof.KernelPayload.lean ====
/-
  What the kernel's body computes on one grid point, read at one entry.  The body loads a [1024, 768] block `a` of the
  flattened patches, the whole [768, 768] transposed weight matrix `w` and the [1, 768] bias row `b`, narrows `a` and
  `w` to bf16 (the identity on extended reals), multiplies them into a zero accumulator and adds the bias row broadcast
  down the rows.  At entry `(r, h)` of the block this is

      (Σ_k a[r, k] · w[k, h]) + b[0, h],

  the flat product of `Cert.PatchEmbed.rowTimesCol` on the block: a matrix product into zero is the plain sum over the one
  contracted axis, re-indexed from the contraction's index set to `Fin 768`.
-/
import proofs.«110203_j49237505081621_1_alg».proof.Proof.Gen.KernelIdeal.Skeleton
import proofs.«110203_j49237505081621_1_alg».proof.Proof.Tokens
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The product's operand indices, axis by axis -/

/-- The left operand is read on the output's row … -/
theorem lhs_row (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
/-- … at the contracted position; -/
theorem lhs_col (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
/-- the right operand at the contracted position … -/
theorem rhs_row (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
/-- … on the output's column. -/
theorem rhs_col (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-! ## The three non-pointwise operations at an entry -/

/-- The matrix product into the zero accumulator at entry `(r, h)`: row `r` of the left operand against column `h` of
    the right one. -/
theorem product_at {φ₁ φ₂ : FTy} (l : FVec Ideal S1024x768 φ₁) (w : FVec Ideal S768x768 φ₂) (r : Fin 1024) (h : Fin 768) :
    matmul (F := Ideal) dot_S1024x768_S768x768_S1024x768_1_0_0_1_n_n none l w (constant (F := Ideal) S1024x768 .f32 0x00000000#32) (ix2 r h)
      = ∑ k : Fin 768, l (ix2 r k) * w (ix2 k h) := by
  show FloatOps.matmul dot_S1024x768_S768x768_S1024x768_1_0_0_1_n_n none l w (constant (F := Ideal) S1024x768 .f32 0x00000000#32) (ix2 r h) = _
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 r h) ((contrEquiv1 dot_S1024x768_S768x768_S1024x768_1_0_0_1_n_n 768 rfl rfl).symm k) = ix2 r k := funext fun a => Fin.ext (by
    match a with
    | ⟨0, _⟩ => exact lhs_row _ _
    | ⟨1, _⟩ => exact (lhs_col _ _).trans hk)
  have er : dot_S1024x768_S768x768_S1024x768_1_0_0_1_n_n.rhsIdx (ix2 r h) ((contrEquiv1 dot_S1024x768_S768x768_S1024x768_1_0_0_1_n_n 768 rfl rfl).symm k) = ix2 k h := funext fun a => Fin.ext (by
    match a with
    | ⟨0, _⟩ => exact (rhs_row _ _).trans hk
    | ⟨1, _⟩ => exact rhs_col _ _)
  rw [el, er]

/-- The bias row broadcast down the rows reads the row's entry of the same column. -/
theorem bias_at {α : Type} (b : S1x768.Idx → α) (r : Fin 1024) (h : Fin 768) :
    broadcastTo S1024x768 b broadcasts_S1x768_S1024x768 (ix2 r h) = b (ix2 (0 : Fin 1) h) :=
  broadcastTo_apply b broadcasts_S1x768_S1024x768 (ix2 r h) (ix2 (0 : Fin 1) h) (fun a => match a with
    | ⟨0, _⟩ => by show 0 = if (1 : Nat) = 1 then 0 else r.val; rw [if_pos rfl]
    | ⟨1, _⟩ => by show h.val = if (768 : Nat) = 1 then 0 else h.val; rw [if_neg (by decide)])

/-! ## The payload -/

/-- THE BODY AT AN ENTRY: the stored value at `(r, h)` is the flat product of the loaded blocks there. -/
theorem payload_at (a : Vec Ideal S1024x768 .f32) (w : Vec Ideal S768x768 .f32) (b : Vec Ideal S1x768 .f32) (r : Fin 1024) (h : Fin 768) :
    k0_pay1 (F := Ideal) a w b (ix2 r h) = (∑ k : Fin 768, a (ix2 r k) * w (ix2 k h)) + b (ix2 (0 : Fin 1) h) := by
  unfold k0_pay1
  show matmul (F := Ideal) dot_S1024x768_S768x768_S1024x768_1_0_0_1_n_n none
        (truncf .bf16 (shapeCast S1024x768 a shapeCasts_S1024x768_S1024x768) bitsLt_bf16_f32)
        (truncf .bf16 (shapeCast S768x768 w shapeCasts_S768x768_S768x768) bitsLt_bf16_f32)
        (constant (F := Ideal) S1024x768 .f32 0x00000000#32) (ix2 r h)
      + broadcastTo S1024x768 (shapeCast S1x768 b shapeCasts_S1x768_S1x768) broadcasts_S1x768_S1024x768 (ix2 r h) = _
  rw [product_at, bias_at, shapeCast_self, shapeCast_self, shapeCast_self]
  rfl

end Cert.KernelIdeal.Hand

end
-- ==== Proof.KernelBlocks.lean ====
/-
  From the body's entries to the flat product array.  The kernel runs on 49 grid points; point `t` reads rows
  `1024·t … 1024·t + 1023` of the flattened patches, the whole transposed weight matrix and the whole bias row, and
  writes rows `1024·t … 1024·t + 1023` of the output.  What it writes is that block of ONE array, the flat product
  `Cert.PatchEmbed.rowsTimesCols` of the three arrays as the region finds them; the 49 row blocks tile the 50176 rows, so
  after the last point the output array IS the flat product.
-/
import proofs.«110203_j49237505081621_1_alg».proof.Proof.Gen.KernelIdeal.Frame
import proofs.«110203_j49237505081621_1_alg».proof.Proof.KernelPayload
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.PatchEmbed
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`: the patches' and the output's blocks at row block `t`, the weights'
    and the bias's at the origin (decided over the 49 points). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a point's store, over any loaded blocks: if the patch block is rows `1024·T …` of `A` and the other
    two blocks are the whole arrays, the entry at `j` is the flat product at the array index `i` under it. -/
theorem block_entry (A : S50176x768.Idx → EReal) (Wt : S768x768.Idx → EReal) (b2 : S1x768.Idx → EReal)
    (a : Vec Ideal S1024x768 .f32) (w : Vec Ideal S768x768 .f32) (b : Vec Ideal S1x768 .f32) (T : Nat)
    (j : S1024x768.Idx) (i : S50176x768.Idx)
    (hi0 : (i 0).val = T * 1024 + (j 0).val) (hi1 : (i 1).val = (j 1).val)
    (ha : ∀ (y : S1024x768.Idx) (i' : S50176x768.Idx), (i' 0).val = T * 1024 + (y 0).val → (i' 1).val = (y 1).val → a y = A i')
    (hw : w = Wt) (hb : b = b2) :
    k0_pay1 (F := Ideal) a w b j = rowsTimesCols A Wt b2 i := by
  obtain ⟨r, h, rfl⟩ : ∃ (r : Fin 1024) (h : Fin 768), j = ix2 r h := ⟨j 0, j 1, eq_ix2 j⟩
  subst hw hb
  rw [payload_at]
  unfold rowsTimesCols rowTimesCol
  have h1 : i 1 = h := Fin.ext hi1
  rw [h1]
  congr 1
  exact Finset.sum_congr rfl fun k _ => by rw [ha (ix2 r k) (ix2 (i 0) k) hi0 rfl]

/-- WHAT POINT `t` WRITES BACK is block `t` of the flat product of the arrays as the region finds them. -/
theorem flushed_eq (c : Dev nD) (t : Fin cfg0.N) :
    (dats m 0 c).flushed 3 t = ((cfg0.win 3).blk t).view.read (Elt Ideal)
      (rowsTimesCols (V m c main_v3) (V m c main_v4) (V m c main_v5)) := by
  show (cfg0.win 3).cut (grid0.coords t) ((dats m 0 c).after 3 t) = _
  rw [after0_3]
  unfold out0_3
  rw [View.canon_unit_zero zero_offsets]
  simp only [View.ld_unit_zero (S := S1024x768) zero_offsets, View.ld_unit_zero (S := S768x768) zero_offsets, View.ld_unit_zero (S := S1x768) zero_offsets]
  obtain ⟨e0, e1, e2, e3, e4, e5, e6, e7⟩ := block_indices t
  funext j
  show k0_pay1 (F := Ideal) (iblk m c 0 t) (iblk m c 1 t) (iblk m c 2 t) j
    = rowsTimesCols (V m c main_v3) (V m c main_v4) (V m c main_v5) (((cfg0.win 3).blk t).view.emb j)
  refine block_entry (V m c main_v3) (V m c main_v4) (V m c main_v5) (iblk m c 0 t) (iblk m c 1 t) (iblk m c 2 t) t.val j
    (((cfg0.win 3).blk t).view.emb j) ?_ ?_ ?_ ?_ ?_
  · show win0_3.index t (0 : Fin 2) * 1024 + 1 * (j 0).val = _
    rw [e6]; omega
  · show win0_3.index t (1 : Fin 2) * 768 + 1 * (j 1).val = _
    rw [e7]; omega
  · intro y i' h0 h1
    show V m c main_v3 (((cfg0.win 0).blk t).view.emb y) = V m c main_v3 i'
    refine congrArg _ (funext fun a => Fin.ext ?_)
    match a with
    | ⟨0, _⟩ => show win0_0.index t (0 : Fin 2) * 1024 + 1 * (y 0).val = (i' 0).val; rw [e0, h0]; omega
    | ⟨1, _⟩ => show win0_0.index t (1 : Fin 2) * 768 + 1 * (y 1).val = (i' 1).val; rw [e1, h1]; omega
  · funext y
    show V m c main_v4 (((cfg0.win 1).blk t).view.emb y) = V m c main_v4 y
    refine congrArg _ (funext fun a => Fin.ext ?_)
    match a with
    | ⟨0, _⟩ => show win0_1.index t (0 : Fin 2) * 768 + 1 * (y 0).val = (y 0).val; rw [e2]; omega
    | ⟨1, _⟩ => show win0_1.index t (1 : Fin 2) * 768 + 1 * (y 1).val = (y 1).val; rw [e3]; omega
  · funext y
    show V m c main_v5 (((cfg0.win 2).blk t).view.emb y) = V m c main_v5 y
    refine congrArg _ (funext fun a => Fin.ext ?_)
    match a with
    | ⟨0, _⟩ => show win0_2.index t (0 : Fin 2) * 1 + 1 * (y 0).val = (y 0).val; rw [e4]; omega
    | ⟨1, _⟩ => show win0_2.index t (1 : Fin 2) * 768 + 1 * (y 1).val = (y 1).val; rw [e5]; omega

/-- An index of the output array is in point `t`'s block iff each coordinate is in the block's range on its axis. -/
theorem mem_block (t : Fin cfg0.N) (i : S50176x768.Idx) :
    i ∈ ((cfg0.win 3).blk t).view.set ↔ ∀ a : Fin 2, win0_3.index t a * S1024x768.size a ≤ (i a).val ∧ (i a).val < win0_3.index t a * S1024x768.size a + S1024x768.size a := by
  show i ∈ ((View.whole main_v6).slice (win0_3.rect t)).set ↔ _
  rw [View.set_slice_whole, Rect.mem_set_unit]
  exact Iff.rfl

/-- Every row lies in the block of the point `row / 1024`. -/
theorem rows_covered (i : S50176x768.Idx) :
    ∃ t : Fin cfg0.N, (cfg0.win 3).flush t = true ∧ i ∈ ((cfg0.win 3).blk t).view.set := by
  have hi0 : (i 0).val < 50176 := (i 0).isLt
  have hi1 : (i 1).val < 768 := (i 1).isLt
  obtain ⟨t, ht⟩ : ∃ t : Fin cfg0.N, t.val = (i 0).val / 1024 :=
    ⟨⟨(i 0).val / 1024, by rw [show cfg0.N = 49 from N_0]; omega⟩, rfl⟩
  obtain ⟨-, -, -, -, -, -, e6, e7⟩ := block_indices t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; rw [e6, ht]; omega
  | ⟨1, _⟩ => show win0_3.index t (1 : Fin 2) * 768 ≤ (i 1).val ∧ (i 1).val < win0_3.index t (1 : Fin 2) * 768 + 768; rw [e7]; omega

/-- THE OUTPUT ARRAY after the last point is the flat product of the arrays as the region finds them. -/
theorem flat_result (c : Dev nD) :
    (dats m 0 c).arrAt 3 cfg0.N = rowsTimesCols (V m c main_v3) (V m c main_v4) (V m c main_v5) :=
  (dats m 0 c).arrAt_eq_of_cover 3 _ (fun t _ => flushed_eq m c t) rows_covered

end Cert.KernelIdeal.Hand

end
-- ==== Proof.FlatTokens.lean ====
/-
  The flat product, folded back to [256, 196, 768], is the token array.  Merging the patch array's first two axes puts
  patch `(n, p)` on row `196·n + p` (the row-major position is kept), so entry `(n, p, h)` of the folded result is entry
  `(196·n + p, h)` of the flat product; there the left operand's row is patch `(n, p)`, the transposed weights' column
  `h` is row `h` of the weights, and the bias row's entry `h` is the bias at `h`.  Each layout operation is read at an
  index through its row-major position (a reshape) or its permutation (a transpose).
-/
import proofs.«110203_j49237505081621_1_alg».proof.Proof.Tokens
import Idealize.ShloMosaic.Lib.Pipeline.Value

noncomputable section

open scoped BigOperators

namespace Cert.PatchEmbed

open Idealize.ShloMosaic Idealize.ShloMosaic.ValueIdx

/-- THE FOLD: the flat product of the merged patches, the transposed weights and the bias row, reshaped to
    [256, 196, 768], is the token array. -/
theorem fold_flat_product (P : (⟨3, ![256, 196, 768]⟩ : Shape).Idx → EReal) (W : (⟨2, ![768, 768]⟩ : Shape).Idx → EReal)
    (b : (⟨1, ![768]⟩ : Shape).Idx → EReal)
    (hmerge : (⟨3, ![256, 196, 768]⟩ : Shape).ShapeCasts ⟨2, ![50176, 768]⟩)
    (hswap : (⟨2, ![768, 768]⟩ : Shape).Transposes [1, 0] ⟨2, ![768, 768]⟩)
    (hrow : (⟨1, ![768]⟩ : Shape).ShapeCasts ⟨2, ![1, 768]⟩)
    (hfold : (⟨2, ![50176, 768]⟩ : Shape).ShapeCasts ⟨3, ![256, 196, 768]⟩) :
    shapeCast ⟨3, ![256, 196, 768]⟩
        (rowsTimesCols (shapeCast ⟨2, ![50176, 768]⟩ P hmerge) (transpose ⟨2, ![768, 768]⟩ [1, 0] W hswap)
          (shapeCast ⟨2, ![1, 768]⟩ b hrow)) hfold
      = tokens P W b := by
  funext i
  obtain ⟨n, p, h, rfl⟩ : ∃ (n : Fin 256) (p : Fin 196) (h : Fin 768), i = ix3 n p h := ⟨i 0, i 1, i 2, eq_ix3 i⟩
  have hr : n.val * 196 + p.val < 50176 := by have := n.isLt; have := p.isLt; omega
  refine (shapeCast_apply _ hfold (ix3 n p h) (ix2 (⟨n.val * 196 + p.val, hr⟩ : Fin 50176) h) ?_).trans ?_
  · rw [Shape.rowMajor_val_two, Shape.rowMajor_val_three]
    rfl
  · show rowTimesCol _ _ _ (⟨n.val * 196 + p.val, hr⟩ : Fin 50176) h = tokenAt P W b n p h
    refine rowTimesCol_eq_tokenAt P W b _ _ _ n p h _ rfl ?_ ?_ ?_
    · intro r' k hr'
      refine shapeCast_apply P hmerge (ix2 r' k) (ix3 n p k) ?_
      rw [Shape.rowMajor_val_two, Shape.rowMajor_val_three]
      show (n.val * 196 + p.val) * 768 + k.val = r'.val * 768 + k.val
      rw [hr']
    · intro k h'
      exact transpose_apply [1, 0] W hswap (ix2 k h') (ix2 h' k) (fun a => match a with
        | ⟨0, _⟩ => rfl
        | ⟨1, _⟩ => rfl)
    · intro h'
      refine shapeCast_apply b hrow (ix2 (0 : Fin 1) h') (ix1 h') ?_
      rw [Shape.rowMajor_val_one, Shape.rowMajor_val_two]
      show h'.val = 0 * 768 + h'.val
      omega

end Cert.PatchEmbed

end
-- ==== Proof.KernelResult.lean ====
/-
  The kernel's whole program, read as a value.  Before the region the program cuts the images into patches (a reshape,
  a transpose, a reshape), merges the patch array's first two axes, transposes the weights and turns the bias into a
  row; the region leaves the flat product of those three arrays; the one operation after the region folds the flat
  product back to [256, 196, 768].  By `Cert.PatchEmbed.fold_flat_product` the result is the token array of the patch
  array, the weights and the bias.
-/
import proofs.«110203_j49237505081621_1_alg».proof.Proof.KernelBlocks
import proofs.«110203_j49237505081621_1_alg».proof.Proof.FlatTokens
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.PatchEmbed Idealize.ShloMosaic.StableHlo
open Idealize.ShloMosaic.Pipeline (Dat)

variable (m : (ℓ : Loc nD τ sig) → Buf (Elt Ideal) ℓ) (ρ : Dev nD → PrngReg)

/-- The patch array of an image batch: the images reshaped to [256, 3, 14, 16, 14, 16], the patch grid moved in front
    of the channel, and each patch flattened. -/
def patches (x : S256x3x224x224.Idx → EReal) : S256x196x768.Idx → EReal :=
  shapeCast S256x196x768
    (transpose S256x14x14x3x16x16 [0, 2, 4, 1, 3, 5]
      (shapeCast S256x3x14x16x14x16 x shapeCasts_S256x3x224x224_S256x3x14x16x14x16)
      transposes_S256x3x14x16x14x16_S256x14x14x3x16x16_0_2_4_1_3_5)
    shapeCasts_S256x14x14x3x16x16_S256x196x768

/-- The region finds the patches with their first two axes merged, -/
theorem merged_patches (c : Dev nD) :
    (V m c main_v3 : S50176x768.Idx → EReal)
      = shapeCast S50176x768 (patches (m ((c : Thread nD τ).loc main_arg0))) shapeCasts_S256x196x768_S50176x768 := by
  show StableHlo.after hostOps0 (fun b => m (c, b)) (Proc.devRef .tc main_v3) = _
  after_results <;> rfl

/-- the weights transposed, -/
theorem transposed_weights (c : Dev nD) :
    (V m c main_v4 : S768x768.Idx → EReal)
      = transpose S768x768 [1, 0] (m ((c : Thread nD τ).loc main_arg1)) transposes_S768x768_S768x768_1_0 := by
  show StableHlo.after hostOps0 (fun b => m (c, b)) (Proc.devRef .tc main_v4) = _
  after_results <;> rfl

/-- and the bias as a row. -/
theorem bias_as_row (c : Dev nD) :
    (V m c main_v5 : S1x768.Idx → EReal)
      = shapeCast S1x768 (m ((c : Thread nD τ).loc main_arg2)) shapeCasts_S768_S1x768 := by
  show StableHlo.after hostOps0 (fun b => m (c, b)) (Proc.devRef .tc main_v5) = _
  after_results <;> rfl

/-- The operation after the region folds the region's output array back to [256, 196, 768]. -/
theorem folded_output (c : Dev nD) :
    Pipeline.afterTail₀ cfgs (dats m) 0 (V0 m) [hostOps1] c main_v7
      = shapeCast S256x196x768 ((dats m 0 c).arrAt 3 cfg0.N) shapeCasts_S50176x768_S256x196x768 := by
  unfold Pipeline.afterTail₀
  show StableHlo.after hostOps1 _ (Proc.devRef .tc main_v7) = _
  after_results
  exact congrArg (fun X => shapeCast S256x196x768 X shapeCasts_S50176x768_S256x196x768)
    (Pipeline.withArrays_arr spec0 launch0.win.arr_inj c (V0 m c) (fun w => (dats m 0 c).arrAt w cfg0.N) 3)

/-- THE RESULT: what the program leaves in its result array is the token array of the images' patches, the weights
    and the bias. -/
theorem result_tokens (c : Dev nD) :
    Pipeline.afterTail₀ cfgs (dats m) 0 (V0 m) [hostOps1] c main_v7
      = tokens (patches (m ((c : Thread nD τ).loc main_arg0))) (m ((c : Thread nD τ).loc main_arg1))
          (m ((c : Thread nD τ).loc main_arg2)) := by
  rw [folded_output, flat_result, merged_patches, transposed_weights, bias_as_row]
  exact fold_flat_product _ _ _ _ _ _ _

/-- The run, read: every weakly fair execution ends with the result array at the token array and the three
    arguments as launched. -/
theorem run : θ_run defs (onTc (τ := τ) (main (F := Ideal))) ⟨m, fun _ => 0, ρ⟩ fun r => ∀ c : Dev nD,
      r.2.mem ((c : Thread nD τ).loc main_v7)
        = tokens (patches (m ((c : Thread nD τ).loc main_arg0))) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v7 (Pipeline.mem_restRefs_of main_v7 (by decide) (by decide))).trans (result_tokens m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Hand

end
-- ==== Proof.RefTokens.lean ====
/-
  The reference computes the token array.  Its program cuts the images into patches (a reshape, a transpose, a reshape),
  contracts the patch array's last axis with the weights' last axis, and adds the bias broadcast over batch and patch.
  Read at an index `(n, p, h)` that is `(Σ_k P[n, p, k] · W[h, k]) + b[h]`, where `P` is the patch array the first three
  operations produce: the token of `Cert.PatchEmbed.tokens`.  The patch array itself is left as the operations' term;
  the kernel's program builds it by the same three operations.
-/
import proofs.«110203_j49237505081621_1_alg».proof.Proof.Gen.ReferenceIdeal.Read
import proofs.«110203_j49237505081621_1_alg».proof.Proof.Tokens

noncomputable section

open scoped BigOperators

namespace Cert.ReferenceIdeal.RefValue

open Cert.ReferenceIdeal Cert.ReferenceIdeal.Read Idealize.ShloMosaic Idealize.ShloMosaic.ValueIdx Cert.PatchEmbed

/-- The reference's result, as its last stage, is the token array of the patch array its first three stages build. -/
theorem reference_tokens (x0 : (⟨S256x3x224x224, .f32⟩ : BufTy).Contents (Elt Ideal))
    (x1 : (⟨S768x768, .f32⟩ : BufTy).Contents (Elt Ideal)) (x2 : (⟨S768, .f32⟩ : BufTy).Contents (Elt Ideal)) :
    val_main_v6 (F := Ideal) x0 x1 x2 = tokens (val_main_v2 (F := Ideal) x0) x1 x2 := by
  funext i
  rw [val_main_v6_apply, val_main_v3_apply, val_main_v5_apply, val_main_v4_apply]
  have el : ∀ k : Fin 768, lidx_main_v3 i k = ix3 (i 0) (i 1) k := fun k => funext fun a => Fin.ext (by
    match a with
    | ⟨0, _⟩ => rfl
    | ⟨1, _⟩ => rfl
    | ⟨2, _⟩ => rfl)
  have er : ∀ k : Fin 768, ridx_main_v3 i k = ix2 (i 2) k := fun k => funext fun a => Fin.ext (by
    match a with
    | ⟨0, _⟩ => rfl
    | ⟨1, _⟩ => rfl)
  have eb : idx_main_v4 (idx_main_v5 i) = ix1 (i 2) := funext fun a => Fin.ext (by
    match a with
    | ⟨0, _⟩ => rfl)
  simp only [el, er, eb]
  rfl

end Cert.ReferenceIdeal.RefValue

end
-- ==== Proof.lean ====
/-
  A patch embedding: a batch of 256 images of 3 × 224 × 224 pixels is cut into 14 × 14 patches of 3 × 16 × 16 = 768
  pixels, and each patch is projected by a [768, 768] weight matrix and shifted by a bias:

      token[n, p, h] = (Σ_k patch[n, p, k] · W[h, k]) + b[h].

  The reference contracts the [256, 196, 768] patch array with the weights directly and adds the broadcast bias.  The
  kernel merges batch and patch into 50176 rows, transposes the weights, and runs a tiled matrix product over 49 blocks
  of 1024 rows, adding the bias as a row; the result is folded back to [256, 196, 768].  Over the extended reals both
  are the same sum of the same 768 products plus the same bias entry, term by term: the narrowing to bf16 is the
  identity, a product into a zero accumulator is the plain sum, and the merge, the transpose and the fold only move
  entries.  No law of arithmetic beyond that is used, so the inputs' finiteness is not needed.  Both programs build the
  patch array by the same three layout operations, so it is carried as one term.
-/
import proofs.«110203_j49237505081621_1_alg».proof.Defs
import proofs.«110203_j49237505081621_1_alg».proof.Proof.Gen.Kernel
import proofs.«110203_j49237505081621_1_alg».proof.Proof.Gen.Kernel.Skeleton
import proofs.«110203_j49237505081621_1_alg».proof.Proof.Gen.Kernel.Launch
import proofs.«110203_j49237505081621_1_alg».proof.Proof.Gen.Kernel.Points
import proofs.«110203_j49237505081621_1_alg».proof.Proof.Gen.Kernel.Frame
import proofs.«110203_j49237505081621_1_alg».proof.Proof.Gen.KernelIdeal
import proofs.«110203_j49237505081621_1_alg».proof.Proof.Gen.KernelIdeal.Skeleton
import proofs.«110203_j49237505081621_1_alg».proof.Proof.Gen.KernelIdeal.Launch
import proofs.«110203_j49237505081621_1_alg».proof.Proof.Gen.KernelIdeal.Points
import proofs.«110203_j49237505081621_1_alg».proof.Proof.Gen.KernelIdeal.Frame
import proofs.«110203_j49237505081621_1_alg».proof.Proof.Gen.ReferenceIdeal
import proofs.«110203_j49237505081621_1_alg».proof.Proof.Gen.Pre_finite_inputs
import proofs.«110203_j49237505081621_1_alg».proof.Proof.Gen.ReferenceIdeal.Run
import proofs.«110203_j49237505081621_1_alg».proof.Proof.Gen.ReferenceIdeal.Read
import proofs.«110203_j49237505081621_1_alg».proof.Proof.KernelResult
import proofs.«110203_j49237505081621_1_alg».proof.Proof.RefTokens
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the token array of the launched images' patches, weights and bias. -/
theorem algebraic : Cert.algebraic_KernelIdeal_ReferenceIdeal := by
  intro m ρ m' ρ' _ hagree
  refine ⟨fun c => Cert.PatchEmbed.tokens
      (Cert.KernelIdeal.Hand.patches (m ((c : Thread Cert.KernelIdeal.nD Cert.KernelIdeal.τ).loc Cert.KernelIdeal.main_arg0)))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v6_eq,
    Cert.ReferenceIdeal.RefValue.reference_tokens]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
